-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S2000x128 : Shape := ⟨2, ![2000, 128]⟩
abbrev S1x128 : Shape := ⟨2, ![1, 128]⟩

abbrev nBuf : Space → Nat
  | .hbm => 35
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageCombine.lean ====
/-
  The combine step of a mean-aggregating graph layer, as ONE function on the extended reals.
  For a node (row) `r` and an output feature `n`,

      out[r, n] = (Σₖ agg[r, k] · W_l[n, k] + Σₖ x[r, k] · W_r[n, k]) + b_l[n],

  where `agg` is the per-node mean of the neighbours' features and `x` the node's own features. Each weight
  matrix is contracted along its SECOND axis: the product with the transpose, `agg @ W_lᵀ` and `x @ W_rᵀ`.

  The same three summands can be added in another order, the bias between the two products:
  `(Σₖ agg·W_l + b_l) + Σₖ x·W_r`. Addition on the extended reals is commutative and associative (it is a
  commutative monoid: `⊤ + ⊥ = ⊥` on both sides of either law), so the two orders agree for EVERY value of the
  summands, the infinities included: no finiteness of the inputs is used.
-/
import Idealize.ShloMosaic.PureOps.Ideal
import Idealize.ShloMosaic.Lib.ValueIdx

noncomputable section

open scoped BigOperators

namespace Cert.SageCombine

open Idealize.ShloMosaic Idealize.ShloMosaic.ValueIdx

/-- Node features: 100000 nodes by 128 features. -/
abbrev Nodes : Shape := ⟨2, ![100000, 128]⟩
/-- A weight matrix: 128 output features by 128 input features. -/
abbrev Weights : Shape := ⟨2, ![128, 128]⟩
/-- The bias: one entry per output feature. -/
abbrev Bias : Shape := ⟨1, ![128]⟩

/-- Row `r` of `a` against row `n` of `w`: entry `(r, n)` of `a @ wᵀ`. -/
def rowDot (a : Nodes.Idx → EReal) (w : Weights.Idx → EReal) (r : Fin 100000) (n : Fin 128) : EReal :=
  ∑ k : Fin 128, a (ix2 r k) * w (ix2 n k)

/-- The layer's output: the two products added first, then the bias. -/
def combine (agg x : Nodes.Idx → EReal) (wl wr : Weights.Idx → EReal) (b : Bias.Idx → EReal) : Nodes.Idx → EReal :=
  fun i => (rowDot agg wl (i 0) (i 1) + rowDot x wr (i 0) (i 1)) + b (ix1 (i 1))

/-- At a node and a feature. -/
theorem combine_apply (agg x : Nodes.Idx → EReal) (wl wr : Weights.Idx → EReal) (b : Bias.Idx → EReal)
    (r : Fin 100000) (n : Fin 128) :
    combine agg x wl wr b (ix2 r n) = (rowDot agg wl r n + rowDot x wr r n) + b (ix1 n) := rfl

/-- The bias added BETWEEN the two products gives the same entry: `(p + b) + q = (p + q) + b` in a commutative
    monoid. -/
theorem bias_between (agg x : Nodes.Idx → EReal) (wl wr : Weights.Idx → EReal) (b : Bias.Idx → EReal) (i : Nodes.Idx) :
    (rowDot agg wl (i 0) (i 1) + b (ix1 (i 1))) + rowDot x wr (i 0) (i 1) = combine agg x wl wr b i :=
  add_right_comm _ _ _

end Cert.SageCombine

end
-- ==== Proof.KernelPayload.lean ====
/-
  What the kernel body stores, read at one entry of its block.

  At a grid point the body holds a block of 2000 rows of `agg` and of `x`, the two whole weight matrices and the
  bias. It narrows the four matrices to bf16 (the identity on extended reals), forms the two products on the
  matrix unit, each into a zero accumulator and each contracting the SECOND axis of both operands, adds them,
  and adds the bias row broadcast down the 2000 rows. So entry `(p, q)` of what it stores is

      (Σₖ a[p, k] · wl[q, k] + Σₖ x[p, k] · wr[q, k]) + b[q].

  A matrix product into the zero accumulator is the plain sum over its one contraction axis; the contraction
  index set is identified with `Fin 128` and the operand indices read off the dimension numbers axis by axis.
-/
import proofs.«115909_j79937931313499_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The matrix product's operand indices, axis by axis -/

/-- The left operand's row is the output's row (axis 0 is the left operand's free axis). -/
theorem lhs_axis0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- The left operand's column is the contraction coordinate. -/
theorem lhs_axis1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
/-- The right operand's ROW is the output's column (axis 0 is the right operand's free axis: the weights are used transposed). -/
theorem rhs_axis0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
/-- The right operand's column is the contraction coordinate. -/
theorem rhs_axis1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- The product into the zero accumulator at entry `(p, q)`: row `p` of the left operand against ROW `q` of the right. -/
theorem matmul_rows (a : FVec Ideal S2000x128 .bf16) (w : FVec Ideal S128x128 .bf16) (p : Fin 2000) (q : Fin 128) :
    matmul dot_S2000x128_S128x128_S2000x128_1_1_0_0_n_n none a w (constant (F := Ideal) S2000x128 .f32 0x00000000#32) (ix2 p q)
      = ∑ k : Fin 128, a (ix2 p k) * w (ix2 q k) := by
  refine (Ideal.matmul_constant_zero_apply dot_S2000x128_S128x128_S2000x128_1_1_0_0_n_n none a w (ix2 p q)).trans ?_
  rw [← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## The bias row down the block -/

/-- The bias, given a leading unit axis and broadcast down the rows, reads the bias at the column. -/
theorem bias_rows (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_apply _ broadcasts_S1x128_S2000x128 (ix2 p q) (ix2 (0 : Fin 1) q) (fun a => by
    match a with
    | ⟨0, _⟩ => rfl
    | ⟨1, _⟩ => rfl)]
  exact shapeCast_apply b shapeCasts_S128_S1x128 (ix2 (0 : Fin 1) q) (ix1 q) (by
    rw [Shape.rowMajor_val_two, Shape.rowMajor_val_one]; show q.val = 0 * 128 + q.val; omega)

/-! ## The payload at an entry -/

/-- Entry `(p, q)` of what the body stores: the two products' entries added, then the bias at `q`. -/
theorem payload_apply (a x : Vec Ideal S2000x128 .f32) (wl wr : Vec Ideal S128x128 .f32) (b : Vec Ideal S128 .f32)
    (p : Fin 2000) (q : Fin 128) :
    k0_pay1 (F := Ideal) a x wl wr b (ix2 p q)
      = (∑ k : Fin 128, a (ix2 p k) * wl (ix2 q k) + ∑ k : Fin 128, x (ix2 p k) * wr (ix2 q k)) + b (ix1 q) := by
  unfold k0_pay1
  rw [addf_apply, addf_apply, matmul_rows, matmul_rows, bias_rows]
  simp only [truncf_apply, shapeCast_self]

end Cert.KernelIdeal.Hand

end
-- ==== Proof.KernelValue.lean ====
/-
  The kernel's result array after the run is the layer's combine step of the arrays the region finds.

  The grid has 50 points; point `t` holds rows `2000·t … 2000·t + 1999` of `agg` (the array the host prefix left)
  and of `x`, the whole of both weight matrices and of the bias, and writes back rows `2000·t … 2000·t + 1999` of
  the result. Entry `(p, q)` of what it writes is the body's payload at `(p, q)`, which is the combine step at
  node `2000·t + p` and feature `q`: the row blocks of the inputs are the rows the entry depends on, and the
  weights and the bias do not move. The 50 row blocks tile the 100000 rows (node `r` is in block `r / 2000`), so
  the whole result array is the combine step.
-/
import proofs.«115909_j79937931313499_1_alg».proof.Proof.Gen.KernelIdeal.Value
import proofs.«115909_j79937931313499_1_alg».proof.Proof.KernelPayload
import proofs.«115909_j79937931313499_1_alg».proof.Proof.SageCombine

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.SageCombine

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-! ## Which block each window holds at a point -/

/-- Decided over the 50 points: the two row-blocked inputs and the output are at row block `t`, column block 0;
    the weights and the bias stay at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Read through window 0's block at point `t`, an array of node rows gives its rows `2000·t …`. -/
theorem agg_rows (t : Fin cfg0.N) (A : S100000x128.Idx → EReal) (y : S2000x128.Idx) (i : S100000x128.Idx)
    (h0 : (i 0).val = 2000 * t.val + (y 0).val) (h1 : (i 1).val = (y 1).val) :
    (((cfg0.win 0).blk t).view.read (Elt Ideal) A : Vec Ideal S2000x128 .f32) y = A i := by
  obtain ⟨e0, e1, -⟩ := block_index t
  show A (((cfg0.win 0).blk t).view.emb y) = A i
  exact congrArg A (funext fun a => Fin.ext (by
    match a with
    | ⟨0, _⟩ => show win0_0.index t (0 : Fin 2) * 2000 + 1 * (y 0).val = (i 0).val; rw [e0, h0]; omega
    | ⟨1, _⟩ => show win0_0.index t (1 : Fin 2) * 128 + 1 * (y 1).val = (i 1).val; rw [e1, h1]; omega))

/-- The same through window 1's block. -/
theorem x_rows (t : Fin cfg0.N) (X : S100000x128.Idx → EReal) (y : S2000x128.Idx) (i : S100000x128.Idx)
    (h0 : (i 0).val = 2000 * t.val + (y 0).val) (h1 : (i 1).val = (y 1).val) :
    (((cfg0.win 1).blk t).view.read (Elt Ideal) X : Vec Ideal S2000x128 .f32) y = X i := by
  obtain ⟨-, -, e0, e1, -⟩ := block_index t
  show X (((cfg0.win 1).blk t).view.emb y) = X i
  exact congrArg X (funext fun a => Fin.ext (by
    match a with
    | ⟨0, _⟩ => show win0_1.index t (0 : Fin 2) * 2000 + 1 * (y 0).val = (i 0).val; rw [e0, h0]; omega
    | ⟨1, _⟩ => show win0_1.index t (1 : Fin 2) * 128 + 1 * (y 1).val = (i 1).val; rw [e1, h1]; omega))

/-- Window 2's block at every point is the whole matrix. -/
theorem wl_whole (t : Fin cfg0.N) (W : S128x128.Idx → EReal) (y : S128x128.Idx) :
    (((cfg0.win 2).blk t).view.read (Elt Ideal) W : Vec Ideal S128x128 .f32) y = W y := by
  obtain ⟨-, -, -, -, e0, e1, -⟩ := block_index t
  show W (((cfg0.win 2).blk t).view.emb y) = W y
  exact congrArg W (funext fun a => Fin.ext (by
    match a with
    | ⟨0, _⟩ => show win0_2.index t (0 : Fin 2) * 128 + 1 * (y 0).val = (y 0).val; rw [e0]; omega
    | ⟨1, _⟩ => show win0_2.index t (1 : Fin 2) * 128 + 1 * (y 1).val = (y 1).val; rw [e1]; omega))

/-- Window 3's block at every point is the whole matrix. -/
theorem wr_whole (t : Fin cfg0.N) (W : S128x128.Idx → EReal) (y : S128x128.Idx) :
    (((cfg0.win 3).blk t).view.read (Elt Ideal) W : Vec Ideal S128x128 .f32) y = W y := by
  obtain ⟨-, -, -, -, -, -, e0, e1, -⟩ := block_index t
  show W (((cfg0.win 3).blk t).view.emb y) = W y
  exact congrArg W (funext fun a => Fin.ext (by
    match a with
    | ⟨0, _⟩ => show win0_3.index t (0 : Fin 2) * 128 + 1 * (y 0).val = (y 0).val; rw [e0]; omega
    | ⟨1, _⟩ => show win0_3.index t (1 : Fin 2) * 128 + 1 * (y 1).val = (y 1).val; rw [e1]; omega))

/-- Window 4's block at every point is the whole bias. -/
theorem bias_whole (t : Fin cfg0.N) (B : S128.Idx → EReal) (y : S128.Idx) :
    (((cfg0.win 4).blk t).view.read (Elt Ideal) B : Vec Ideal S128 .f32) y = B y := by
  obtain ⟨-, -, -, -, -, -, -, -, e0, -⟩ := block_index t
  show B (((cfg0.win 4).blk t).view.emb y) = B y
  exact congrArg B (funext fun a => Fin.ext (by
    match a with
    | ⟨0, _⟩ => show win0_4.index t (0 : Fin 1) * 128 + 1 * (y 0).val = (y 0).val; rw [e0]; omega))

/-! ## One entry of one block -/

/-- Over plain vectors: if the two row blocks are rows `base …` of `agg` and `x`, and the weights and the bias are
    whole, the payload at `(p, q)` is the combine step at node `base + p`, feature `q`. -/
theorem entry_of_blocks (agg x : Nodes.Idx → EReal) (wl wr : Weights.Idx → EReal) (b : Bias.Idx → EReal)
    (a0 x0 : Vec Ideal S2000x128 .f32) (w0 w1 : Vec Ideal S128x128 .f32) (b0 : Vec Ideal S128 .f32)
    (p : Fin 2000) (q : Fin 128) (r : Fin 100000)
    (ha : ∀ k : Fin 128, a0 (ix2 p k) = agg (ix2 r k)) (hx : ∀ k : Fin 128, x0 (ix2 p k) = x (ix2 r k))
    (hwl : ∀ k : Fin 128, w0 (ix2 q k) = wl (ix2 q k)) (hwr : ∀ k : Fin 128, w1 (ix2 q k) = wr (ix2 q k))
    (hb : b0 (ix1 q) = b (ix1 q)) :
    k0_pay1 (F := Ideal) a0 x0 w0 w1 b0 (ix2 p q) = combine agg x wl wr b (ix2 r q) := by
  rw [payload_apply, combine_apply]
  unfold rowDot
  simp only [ha, hx, hwl, hwr, hb]

/-! ## One point's block, over any arrays -/

/-- For ANY five arrays: the body's payload of their blocks at point `t`, read through the output window, is block `t`
    of their combine step. -/
theorem block_eq (A X : S100000x128.Idx → EReal) (Wl Wr : S128x128.Idx → EReal) (B : S128.Idx → EReal) (t : Fin cfg0.N) :
    (cfg0.win 5).cut (grid0.coords t)
        (k0_pay1 (F := Ideal) (((cfg0.win 0).blk t).view.read (Elt Ideal) A) (((cfg0.win 1).blk t).view.read (Elt Ideal) X)
          (((cfg0.win 2).blk t).view.read (Elt Ideal) Wl) (((cfg0.win 3).blk t).view.read (Elt Ideal) Wr)
          (((cfg0.win 4).blk t).view.read (Elt Ideal) B))
      = ((cfg0.win 5).blk t).view.read (Elt Ideal) (combine A X Wl Wr B) := by
  obtain ⟨-, -, -, -, -, -, -, -, -, e0, e1⟩ := block_index t
  have hN : cfg0.N = 50 := N_0
  have ht : t.val < 50 := hN ▸ t.isLt
  funext j
  have hj0 : (j 0).val < 2000 := (j 0).isLt
  have hj1 : (j 1).val < 128 := (j 1).isLt
  have hr : 2000 * t.val + (j 0).val < 100000 := by omega
  have hj : (j : S2000x128.Idx) = ix2 (⟨(j 0).val, hj0⟩ : Fin 2000) (⟨(j 1).val, hj1⟩ : Fin 128) :=
    funext fun a => Fin.ext (by match a with | ⟨0, _⟩ => rfl | ⟨1, _⟩ => rfl)
  have hi : (((cfg0.win 5).blk t).view.emb j : S100000x128.Idx)
      = ix2 (⟨2000 * t.val + (j 0).val, hr⟩ : Fin 100000) (⟨(j 1).val, hj1⟩ : Fin 128) :=
    funext fun a => Fin.ext (by
      match a with
      | ⟨0, _⟩ => show win0_5.index t (0 : Fin 2) * 2000 + 1 * (j 0).val = 2000 * t.val + (j 0).val; rw [e0]; omega
      | ⟨1, _⟩ => show win0_5.index t (1 : Fin 2) * 128 + 1 * (j 1).val = (j 1).val; rw [e1]; omega)
  show k0_pay1 (F := Ideal) (((cfg0.win 0).blk t).view.read (Elt Ideal) A) (((cfg0.win 1).blk t).view.read (Elt Ideal) X)
          (((cfg0.win 2).blk t).view.read (Elt Ideal) Wl) (((cfg0.win 3).blk t).view.read (Elt Ideal) Wr)
          (((cfg0.win 4).blk t).view.read (Elt Ideal) B) j
      = combine A X Wl Wr B (((cfg0.win 5).blk t).view.emb j)
  refine (congrArg _ hj).trans (Eq.trans ?_ (congrArg (combine A X Wl Wr B) hi).symm)
  exact entry_of_blocks A X Wl Wr B
    (((cfg0.win 0).blk t).view.read (Elt Ideal) A) (((cfg0.win 1).blk t).view.read (Elt Ideal) X)
    (((cfg0.win 2).blk t).view.read (Elt Ideal) Wl) (((cfg0.win 3).blk t).view.read (Elt Ideal) Wr)
    (((cfg0.win 4).blk t).view.read (Elt Ideal) B)
    ⟨(j 0).val, hj0⟩ ⟨(j 1).val, hj1⟩ ⟨2000 * t.val + (j 0).val, hr⟩
    (fun k => agg_rows t A _ _ rfl rfl) (fun k => x_rows t X _ _ rfl rfl)
    (fun k => wl_whole t Wl _) (fun k => wr_whole t Wr _) (bias_whole t B _)

/-! ## The result array -/

/-- The combine step of the arrays as the region finds them. -/
abbrev result (c : Dev nD) : Buf (Elt Ideal) ((c : Thread nD τ).loc main_v23) :=
  combine (V m c main_v22) (V m c main_arg0) (V m c main_arg2) (V m c main_arg4) (V m c main_arg3)

/-- WHAT POINT `t` WRITES BACK is block `t` of `result`: the general equation at the arrays the region finds. -/
theorem flushed_eq (c : Dev nD) (t : Fin cfg0.N) :
    (dats m 0 c).flushed 5 t = ((cfg0.win 5).blk t).view.read (Elt Ideal) (result m c) := by
  rw [flushed5]
  unfold out0_5
  rw [View.canon_unit_zero off2]
  simp only [View.ld_unit_zero (S := S2000x128) off2, View.ld_unit_zero (S := S128x128) off2, View.ld_unit_zero (S := S128) off1]
  unfold iblk
  exact block_eq (V m c main_v22) (V m c main_arg0) (V m c main_arg2) (V m c main_arg4) (V m c main_arg3) t

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every node's row is in SOME point's block: node `r` in block `r / 2000`. -/
theorem covered (i : S100000x128.Idx) : ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  let t : Fin cfg0.N := ⟨(i 0).val / 2000, by rw [hN]; omega⟩
  obtain ⟨-, -, -, -, -, -, -, -, -, e0, e1⟩ := block_index t
  have e0' : win0_5.index t (0 : Fin 2) = (i 0).val / 2000 := e0
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; rw [e0']; omega
  | ⟨1, _⟩ => show win0_5.index t (1 : Fin 2) * 128 ≤ (i 1).val ∧ (i 1).val < win0_5.index t (1 : Fin 2) * 128 + 128; rw [e1]; omega

/-- THE ARRAY after the run is `result`. -/
theorem final (c : Dev nD) : (dats m 0 c).arrAt 5 cfg0.N = result m c :=
  (dats m 0 c).arrAt_eq_of_cover 5 (result m c) (fun t _ => flushed_eq m c t) covered

/-- The run, read: the result array at the combine step of the arrays the region finds, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Hand

end
-- ==== Proof.ReferenceValue.lean ====
/-
  The reference's result, as a function of its arguments, is the layer's combine step.

  The reference computes `agg_mean @ W_lᵀ + b_l + x @ W_rᵀ`: each weight matrix transposed and then multiplied
  on the right (contracting the transposed matrix's FIRST axis, which is the original's second), the bias
  broadcast over the nodes and added BETWEEN the two products. Read at a node `r` and a feature `n`, each
  product is the sum over `k` of an entry of row `r` times entry `(n, k)` of the untransposed weights, so the
  entry is `(Σₖ agg[r,k]·W_l[n,k] + b_l[n]) + Σₖ x[r,k]·W_r[n,k]`: the combine step with its summands in
  another order.
  `agg_mean` itself (the gather of the source rows, their scatter-add onto the destination nodes, the division
  by the clamped in-degree) is kept whole as the reference's own stage of `x` and `edge_index`.
-/
import proofs.«115909_j79937931313499_1_alg».proof.Proof.Gen.ReferenceIdeal.Read
import proofs.«115909_j79937931313499_1_alg».proof.Proof.SageCombine

noncomputable section

open scoped BigOperators

namespace Cert.ReferenceIdeal.RefValue

open Cert.ReferenceIdeal Cert.ReferenceIdeal.Read Idealize.ShloMosaic Idealize.ShloMosaic.ValueIdx Cert.SageCombine

/-! ## Where each stage reads its operands -/

/-- The neighbour product's left operand at `(i, k)`: row `i 0`, column `k`. -/
theorem agg_at (i : S100000x128.Idx) (k : Fin 128) : lidx_main_v24 i k = ix2 (i 0) k :=
  funext fun a => Fin.ext (by match a with | ⟨0, _⟩ => rfl | ⟨1, _⟩ => rfl)
/-- Its right operand is the TRANSPOSED `W_l` at `(k, i 1)`: `W_l` at row `i 1`, column `k`. -/
theorem wl_at (i : S100000x128.Idx) (k : Fin 128) : idx_main_v23 (ridx_main_v24 i k) = ix2 (i 1) k :=
  funext fun a => Fin.ext (by match a with | ⟨0, _⟩ => rfl | ⟨1, _⟩ => rfl)
/-- The root product's left operand at `(i, k)`: row `i 0`, column `k`. -/
theorem x_at (i : S100000x128.Idx) (k : Fin 128) : lidx_main_v29 i k = ix2 (i 0) k :=
  funext fun a => Fin.ext (by match a with | ⟨0, _⟩ => rfl | ⟨1, _⟩ => rfl)
/-- Its right operand is the TRANSPOSED `W_r` at `(k, i 1)`: `W_r` at row `i 1`, column `k`. -/
theorem wr_at (i : S100000x128.Idx) (k : Fin 128) : idx_main_v28 (ridx_main_v29 i k) = ix2 (i 1) k :=
  funext fun a => Fin.ext (by match a with | ⟨0, _⟩ => rfl | ⟨1, _⟩ => rfl)
/-- The bias broadcast over the nodes reads the bias at the feature. -/
theorem bias_at (i : S100000x128.Idx) : idx_main_v25 (idx_main_v26 i) = ix1 (i 1) :=
  funext fun a => Fin.ext (by match a with | ⟨0, _⟩ => rfl)

/-! ## The result -/

/-- The reference's result stage is `combine` of its own `agg_mean` stage, the node features, the two weight
    matrices and the bias: entry by entry the same three summands, the bias between the products. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4 = combine (val_main_v22 (F := Ideal) x0 x1) x0 x2 x4 x3 := by
  funext i
  rw [val_main_v30_apply, val_main_v27_apply, val_main_v24_apply, val_main_v26_apply, val_main_v25_apply, val_main_v29_apply]
  simp only [val_main_v23_apply, val_main_v28_apply, agg_at, wl_at, x_at, wr_at, bias_at, Ideal.addf_def]
  exact bias_between (val_main_v22 (F := Ideal) x0 x1) x0 x2 x4 x3 i

end Cert.ReferenceIdeal.RefValue

end
-- ==== Proof.HostPrefix.lean ====
/-
  The array the kernel's region finds as `agg` is the reference's `agg_mean` stage of the same arguments.

  Before its one region the kernel's @main runs, on the host, the same twenty-nine operations the reference
  begins with, operation for operation and literal for literal: the source and destination rows of
  `edge_index`, a negative source index wrapped once by the node count, the gather of the source nodes' feature
  rows, their scatter-add onto the destination nodes, the scatter-add of ones (the in-degree), the degree
  clamped below by one, and the quotient. So what those operations leave in the region's first operand is,
  as a term of `x` and `edge_index`, the very term the reference's stage is: nothing is computed here, the two
  terms are compared.
-/
import proofs.«115909_j79937931313499_1_alg».proof.Proof.Gen.KernelIdeal.Frame
import proofs.«115909_j79937931313499_1_alg».proof.Proof.Gen.ReferenceIdeal.Read
import Idealize.ShloMosaic.Lib.StableHlo.Run

noncomputable section

namespace Cert.Proof.HostPrefix

open Idealize.ShloMosaic Idealize.ShloMosaic.TcCoe Idealize.SL.Sem Idealize.ShloMosaic.StableHlo

/-- The region's first operand, after the host prefix, is the reference's mean-aggregation stage. -/
theorem agg_stage (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v22 : Cert.KernelIdeal.S100000x128.Idx → EReal)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

end Cert.Proof.HostPrefix

end
-- ==== Proof.lean ====
/-
  A mean-aggregating graph layer: the kernel against its plain reference, equal over the extended reals.

  Both programs first form, on the host and by the same operations, the per-node mean `agg` of the neighbours'
  feature rows (gather the source rows, scatter-add them onto the destination nodes, divide by the in-degree
  clamped below by one). The reference then computes `agg @ W_lᵀ + b_l + x @ W_rᵀ` on the host. The kernel
  computes the same in one region over 50 row blocks of 2000 nodes: in each block the two products on the matrix
  unit (operands narrowed to bf16, which is the identity on extended reals; accumulators zero), their sum, and
  the bias row added last.

  * The three frames: the two kernels' are the generated frames; the reference has no region, and its frame is
    its run with the result dropped.
  * `preserves`: the idealization rewrote nothing, and the conjunct is `True`.
  * `algebraic`: entry `(r, n)` of the kernel's result is `(Σₖ agg[r,k]·W_l[n,k] + Σₖ x[r,k]·W_r[n,k]) + b_l[n]`
    (the payload at an entry; the row blocks tile the nodes), the reference's is
    `(Σₖ agg[r,k]·W_l[n,k] + b_l[n]) + Σₖ x[r,k]·W_r[n,k]`, and the two agree because addition of extended reals is
    commutative and associative — for every input, finite or not; the precondition is not used. The array the
    kernel's region finds as `agg` is the reference's own `agg_mean` stage of `x` and `edge_index`, the host
    prefixes being the same term.
-/
import proofs.«115909_j79937931313499_1_alg».proof.Defs
import proofs.«115909_j79937931313499_1_alg».proof.Proof.Gen.Kernel
import proofs.«115909_j79937931313499_1_alg».proof.Proof.Gen.Kernel.Skeleton
import proofs.«115909_j79937931313499_1_alg».proof.Proof.Gen.Kernel.Launch
import proofs.«115909_j79937931313499_1_alg».proof.Proof.Gen.Kernel.Points
import proofs.«115909_j79937931313499_1_alg».proof.Proof.Gen.Kernel.Frame
import proofs.«115909_j79937931313499_1_alg».proof.Proof.Gen.KernelIdeal
import proofs.«115909_j79937931313499_1_alg».proof.Proof.Gen.KernelIdeal.Skeleton
import proofs.«115909_j79937931313499_1_alg».proof.Proof.Gen.KernelIdeal.Launch
import proofs.«115909_j79937931313499_1_alg».proof.Proof.Gen.KernelIdeal.Points
import proofs.«115909_j79937931313499_1_alg».proof.Proof.Gen.KernelIdeal.Frame
import proofs.«115909_j79937931313499_1_alg».proof.Proof.Gen.ReferenceIdeal
import proofs.«115909_j79937931313499_1_alg».proof.Proof.Gen.Pre_finite_inputs
import proofs.«115909_j79937931313499_1_alg».proof.Proof.Gen.KernelIdeal.Value
import proofs.«115909_j79937931313499_1_alg».proof.Proof.Gen.ReferenceIdeal.Run
import proofs.«115909_j79937931313499_1_alg».proof.Proof.Gen.ReferenceIdeal.Read
import proofs.«115909_j79937931313499_1_alg».proof.Proof.SageCombine
import proofs.«115909_j79937931313499_1_alg».proof.Proof.KernelValue
import proofs.«115909_j79937931313499_1_alg».proof.Proof.ReferenceValue
import proofs.«115909_j79937931313499_1_alg».proof.Proof.HostPrefix
import Idealize.ShloMosaic.Adequacy
import Idealize.ShloMosaic.Init

noncomputable section

namespace Cert.Proof

open Idealize.ShloMosaic Idealize.ShloMosaic.TcCoe Idealize.SL.Sem

/-- The kernel's result array, in the arguments alone: the combine step of the reference's `agg_mean` stage, the
    node features, the two weight matrices and the bias. The region finds each argument as launched (no host
    operation writes one) and `agg` as the host prefix left it. -/
theorem kernel_result (m : (ℓ : Loc Cert.KernelIdeal.nD Cert.KernelIdeal.τ Cert.KernelIdeal.sig) → Buf (Elt Ideal) ℓ)
    (c : Dev Cert.KernelIdeal.nD) :
    Cert.KernelIdeal.Hand.result m c
      = Cert.SageCombine.combine
          (Cert.ReferenceIdeal.Read.val_main_v22 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg4))
          (m ((c : Thread Cert.KernelIdeal.nD Cert.KernelIdeal.τ).loc Cert.KernelIdeal.main_arg3)) := by
  unfold Cert.KernelIdeal.Hand.result
  rw [Cert.Proof.HostPrefix.agg_stage m c, Cert.KernelIdeal.Gen.V_main_arg0 m c, Cert.KernelIdeal.Gen.V_main_arg2 m c,
    Cert.KernelIdeal.Gen.V_main_arg4 m c, Cert.KernelIdeal.Gen.V_main_arg3 m c]

theorem frame_kernel : Cert.frame_Kernel := fun m ρ _ => Cert.Kernel.Gen.frame m ρ

theorem frame_kernel_ideal : Cert.frame_KernelIdeal := fun m ρ _ => Cert.KernelIdeal.Gen.frame m ρ

/-- The reference runs no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the combine step of the same five arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v30_eq, Cert.ReferenceIdeal.RefValue.result_eq, e0, e1, e2, e3, e4]
  exact (kernel_result m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
